-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x2048x8 : Shape := ⟨3, ![4, 2048, 8]⟩
abbrev S_ : Shape := ⟨0, ![]⟩
abbrev S1x1x8 : Shape := ⟨3, ![1, 1, 8]⟩
abbrev S8192x8 : Shape := ⟨2, ![8192, 8]⟩
abbrev S8x4096 : Shape := ⟨2, ![8, 4096]⟩
abbrev S4096x1024 : Shape := ⟨2, ![4096, 1024]⟩
abbrev S1x4096 : Shape := ⟨2, ![1, 4096]⟩
abbrev S1x1024 : Shape := ⟨2, ![1, 1024]⟩
abbrev S8192x1024 : Shape := ⟨2, ![8192, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 52
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S4x2048x8, .f32⟩
  | .hbm, ⟨7, _⟩ => ⟨S_, .f32⟩
  | .hbm, ⟨8, _⟩ => ⟨S4x2048x8, .f32⟩
  | .hbm, ⟨9, _⟩ => ⟨S4x2048x8, .f32⟩
  | .hbm, ⟨10, _⟩ => ⟨S4x2048x8, .f32⟩
  | .hbm, ⟨11, _⟩ => ⟨S_, .f32⟩
  | .hbm, ⟨12, _⟩ => ⟨S4x2048x8, .f32⟩
  | .hbm, ⟨13, _⟩ => ⟨S4x2048x8, .f32⟩
  | .hbm, ⟨14, _⟩ => ⟨S4x2048x8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S1x1x8, .f32⟩
  | .hbm, ⟨24, _⟩ => ⟨S4x2048x8, .f32⟩
  | .hbm, ⟨25, _⟩ => ⟨S4x2048x8, .f32⟩
  | .hbm, ⟨26, _⟩ => ⟨S4x2048x8, .f32⟩
  | .hbm, ⟨27, _⟩ => ⟨S1x1x8, .f32⟩
  | .hbm, ⟨28, _⟩ => ⟨S4x2048x8, .f32⟩
  | .hbm, ⟨29, _⟩ => ⟨S4x2048x8, .f32⟩
  | .hbm, ⟨30, _⟩ => ⟨S4x2048x8, .f32⟩
  | .hbm, ⟨31, _⟩ => ⟨S4x2048x8, .f32⟩
  | .hbm, ⟨32, _⟩ => ⟨S1x1x8, .f32⟩
  | .hbm, ⟨33, _⟩ => ⟨S4x2048x8, .f32⟩
  | .hbm, ⟨34, _⟩ => ⟨S4x2048x8, .f32⟩
  | .hbm, ⟨35, _⟩ => ⟨S4x2048x8, .f32⟩
  | .hbm, ⟨36, _⟩ => ⟨S1x1x8, .f32⟩
  | .hbm, ⟨37, _⟩ => ⟨S4x2048x8, .f32⟩
  | .hbm, ⟨38, _⟩ => ⟨S4x2048x8, .f32⟩
  | .hbm, ⟨39, _⟩ => ⟨S4x2048x8, .f32⟩
  | .hbm, ⟨40, _⟩ => ⟨S4x2048x8, .f32⟩
  | .hbm, ⟨41, _⟩ => ⟨S4x2048x8, .f32⟩
  | .hbm, ⟨42, _⟩ => ⟨S8192x8, .f32⟩
  | .hbm, ⟨43, _⟩ => ⟨S8192x8, .bf16⟩
  | .hbm, ⟨44, _⟩ => ⟨S8x4096, .f32⟩
  | .hbm, ⟨45, _⟩ => ⟨S8x4096, .bf16⟩
  | .hbm, ⟨46, _⟩ => ⟨S4096x1024, .f32⟩
  | .hbm, ⟨47, _⟩ => ⟨S4096x1024, .bf16⟩
  | .hbm, ⟨48, _⟩ => ⟨S1x4096, .f32⟩
  | .hbm, ⟨49, _⟩ => ⟨S1x1024, .f32⟩
  | .hbm, ⟨50, _⟩ => ⟨S8192x1024, .f32⟩
  | .hbm, ⟨51, _⟩ => ⟨S4x2048x1024, .f32⟩
  | .local _ .vmem, ⟨0, _⟩ => ⟨S512x8, .bf16⟩
  | .local _ .vmem, ⟨1, _⟩ => ⟨S512x8, .bf16⟩
  | .local _ .vmem, ⟨2, _⟩ => ⟨S8x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S4x2048x1024_S4x2048x8_0_0_0 : S4x2048x1024.Slices ![0, 0, 0] S4x2048x8
  bcast_S_S4x2048x8 : S_.BroadcastsInDim S4x2048x8 (![] : Fin 0 → Fin S4x2048x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  shapeCasts_S4x2048x8_S8192x8 : S4x2048x8.ShapeCasts S8192x8
  bitsLt_bf16_f32 : FTy.bits .bf16 < FTy.bits .f32
  transposes_S4096x8_S8x4096_1_0 : S4096x8.Transposes [1, 0] S8x4096
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x1024_S4x2048x1024 : S8192x1024.ShapeCasts S4x2048x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S8192x8.size a
  hwx0_0 : ∀ i : grid0.Coords, EltTy.bits .bf16 = 32 ∨ (Rect.block (s := S8192x8) S512x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .bf16 = 32 ∨ (Rect.block (s := S8x4096) S8x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v33) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x2048x8 : Shape := ⟨3, ![4, 2048, 8]⟩
abbrev S_ : Shape := ⟨0, ![]⟩
abbrev S1x1x8 : Shape := ⟨3, ![1, 1, 8]⟩
abbrev S4x2048x4096 : Shape := ⟨3, ![4, 2048, 4096]⟩
abbrev S1x1x4096 : Shape := ⟨3, ![1, 1, 4096]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S4x2048x8, .f32⟩
  | .hbm, ⟨7, _⟩ => ⟨S_, .f32⟩
  | .hbm, ⟨8, _⟩ => ⟨S4x2048x8, .f32⟩
  | .hbm, ⟨9, _⟩ => ⟨S4x2048x8, .f32⟩
  | .hbm, ⟨10, _⟩ => ⟨S4x2048x8, .f32⟩
  | .hbm, ⟨11, _⟩ => ⟨S_, .f32⟩
  | .hbm, ⟨12, _⟩ => ⟨S4x2048x8, .f32⟩
  | .hbm, ⟨13, _⟩ => ⟨S4x2048x8, .f32⟩
  | .hbm, ⟨14, _⟩ => ⟨S4x2048x8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S1x1x8, .f32⟩
  | .hbm, ⟨24, _⟩ => ⟨S4x2048x8, .f32⟩
  | .hbm, ⟨25, _⟩ => ⟨S4x2048x8, .f32⟩
  | .hbm, ⟨26, _⟩ => ⟨S4x2048x8, .f32⟩
  | .hbm, ⟨27, _⟩ => ⟨S1x1x8, .f32⟩
  | .hbm, ⟨28, _⟩ => ⟨S4x2048x8, .f32⟩
  | .hbm, ⟨29, _⟩ => ⟨S4x2048x8, .f32⟩
  | .hbm, ⟨30, _⟩ => ⟨S4x2048x8, .f32⟩
  | .hbm, ⟨31, _⟩ => ⟨S4x2048x8, .f32⟩
  | .hbm, ⟨32, _⟩ => ⟨S1x1x8, .f32⟩
  | .hbm, ⟨33, _⟩ => ⟨S4x2048x8, .f32⟩
  | .hbm, ⟨34, _⟩ => ⟨S4x2048x8, .f32⟩
  | .hbm, ⟨35, _⟩ => ⟨S4x2048x8, .f32⟩
  | .hbm, ⟨36, _⟩ => ⟨S1x1x8, .f32⟩
  | .hbm, ⟨37, _⟩ => ⟨S4x2048x8, .f32⟩
  | .hbm, ⟨38, _⟩ => ⟨S4x2048x8, .f32⟩
  | .hbm, ⟨39, _⟩ => ⟨S4x2048x8, .f32⟩
  | .hbm, ⟨40, _⟩ => ⟨S4x2048x8, .f32⟩
  | .hbm, ⟨41, _⟩ => ⟨S4x2048x8, .f32⟩
  | .hbm, ⟨42, _⟩ => ⟨S4x2048x4096, .f32⟩
  | .hbm, ⟨43, _⟩ => ⟨S1x1x4096, .f32⟩
  | .hbm, ⟨44, _⟩ => ⟨S4x2048x4096, .f32⟩
  | .hbm, ⟨45, _⟩ => ⟨S4x2048x4096, .f32⟩
  | .hbm, ⟨46, _⟩ => ⟨S_, .f32⟩
  | .hbm, ⟨47, _⟩ => ⟨S4x2048x4096, .f32⟩
  | .hbm, ⟨48, _⟩ => ⟨S4x2048x4096, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_cst : Ref sig .tc := ⟨.hbm, 46, rfl⟩
abbrev main_call0_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  slices_S4x2048x1024_S4x2048x8_0_0_0 : S4x2048x1024.Slices ![0, 0, 0] S4x2048x8
  bcast_S_S4x2048x8 : S_.BroadcastsInDim S4x2048x8 (![] : Fin 0 → Fin S4x2048x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x8_S4096x8_S4x2048x4096_2_1_01_0_n_n_wf : DotDims.WF S4x2048x8 S4096x8 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.Payload.lean ====
/-
  The kernel body's stored value, read at one element.

  One grid point holds a block `z` of 512 token rows by 8 features, the whole first-layer weight `w1` (8 by 4096), the
  first bias `b1` (a row of 4096), the whole second-layer weight `w2` (4096 by 1024) and the second bias `b2` (a row of
  1024). At the ideal instance a product of matrices into a zero accumulator is the plain sum of products over the
  contracted coordinate, a change of float format is the identity, and `maximumf` is `max` on the extended reals. So the
  element in row `p`, column `q` of what the body stores is

      (∑ f, max ((∑ k, z[p,k] · w1[k,f]) + b1[0,f]) 0 · w2[f,q]) + b2[0,q],

  a two-layer perceptron with a rectifier between the layers, evaluated at one token.
-/
import proofs.«172805_j65481071410316_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Mlp

open Cert.KernelIdeal Cert.KernelIdeal.Gen Idealize.ShloMosaic Idealize.ShloMosaic.ValueIdx

/-! ## The first product's operand indices: rows of the token block against columns of the first weight -/

theorem lhs1_0 (i : S512x4096.Idx) (q : dot_S512x8_S8x4096_S512x4096_1_0_0_1_n_n.contr.Idx) :
    (dot_S512x8_S8x4096_S512x4096_1_0_0_1_n_n.lhsIdx i q 0).val = (i 0).val := by
  unfold DotDims.lhsIdx
  rw [dif_neg (show ¬(0 : Fin S512x8.rank) ∈ dot_S512x8_S8x4096_S512x4096_1_0_0_1_n_n.lhsBatch by decide), dif_pos (show (0 : Fin S512x8.rank) ∈ dot_S512x8_S8x4096_S512x4096_1_0_0_1_n_n.lhsNonContracting by decide)]
  rfl
theorem lhs1_1 (i : S512x4096.Idx) (q : dot_S512x8_S8x4096_S512x4096_1_0_0_1_n_n.contr.Idx) :
    (dot_S512x8_S8x4096_S512x4096_1_0_0_1_n_n.lhsIdx i q 1).val = (q ⟨0, by decide⟩).val :=
  dot_S512x8_S8x4096_S512x4096_1_0_0_1_n_n.lhsIdx_val_of_single rfl i q
theorem rhs1_0 (i : S512x4096.Idx) (q : dot_S512x8_S8x4096_S512x4096_1_0_0_1_n_n.contr.Idx) :
    (dot_S512x8_S8x4096_S512x4096_1_0_0_1_n_n.rhsIdx i q 0).val = (q ⟨0, by decide⟩).val :=
  dot_S512x8_S8x4096_S512x4096_1_0_0_1_n_n.rhsIdx_val_of_single rfl i q
theorem rhs1_1 (i : S512x4096.Idx) (q : dot_S512x8_S8x4096_S512x4096_1_0_0_1_n_n.contr.Idx) :
    (dot_S512x8_S8x4096_S512x4096_1_0_0_1_n_n.rhsIdx i q 1).val = (i 1).val := by
  unfold DotDims.rhsIdx
  rw [dif_neg (show ¬(1 : Fin S8x4096.rank) ∈ dot_S512x8_S8x4096_S512x4096_1_0_0_1_n_n.rhsBatch by decide), dif_pos (show (1 : Fin S8x4096.rank) ∈ dot_S512x8_S8x4096_S512x4096_1_0_0_1_n_n.rhsNonContracting by decide)]
  rfl

/-- The first product into zero, at row `p` and hidden unit `f`: the eight features of the row against column `f`. -/
theorem hidden_apply (z : S512x8.Idx → EReal) (w1 : S8x4096.Idx → EReal) (p : Fin 512) (f : Fin 4096) :
    FloatOps.matmul (F := Ideal) (φ₁ := .bf16) (φ₂ := .bf16) dot_S512x8_S8x4096_S512x4096_1_0_0_1_n_n none z w1 (constant S512x4096 .f32 0x00000000#32) (ix2 p f)
      = ∑ k : Fin 8, z (ix2 p k) * w1 (ix2 k f) := by
  rw [Ideal.matmul_constant_zero_apply, ← Equiv.sum_comp (ValueIdx.contrEquiv1 dot_S512x8_S8x4096_S512x4096_1_0_0_1_n_n 8 rfl rfl).symm]
  refine Finset.sum_congr rfl fun k _ => ?_
  have hk := ValueIdx.contrEquiv1_symm_val dot_S512x8_S8x4096_S512x4096_1_0_0_1_n_n 8 rfl rfl k
  have el : dot_S512x8_S8x4096_S512x4096_1_0_0_1_n_n.lhsIdx (ix2 p f) ((ValueIdx.contrEquiv1 dot_S512x8_S8x4096_S512x4096_1_0_0_1_n_n 8 rfl rfl).symm k) = ix2 p k := funext fun a => Fin.ext (by
    match a with
    | ⟨0, _⟩ => exact lhs1_0 _ _
    | ⟨1, _⟩ => exact (lhs1_1 _ _).trans hk)
  have er : dot_S512x8_S8x4096_S512x4096_1_0_0_1_n_n.rhsIdx (ix2 p f) ((ValueIdx.contrEquiv1 dot_S512x8_S8x4096_S512x4096_1_0_0_1_n_n 8 rfl rfl).symm k) = ix2 k f := funext fun a => Fin.ext (by
    match a with
    | ⟨0, _⟩ => exact (rhs1_0 _ _).trans hk
    | ⟨1, _⟩ => exact rhs1_1 _ _)
  rw [el, er]

/-! ## The second product's operand indices: rows of the hidden block against columns of the second weight -/

theorem lhs2_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs2_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhs2_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhs2_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The second product into zero, at row `p` and output column `q`: the 4096 hidden units of the row against column `q`. -/
theorem out_apply (h : S512x4096.Idx → EReal) (w2 : S4096x1024.Idx → EReal) (p : Fin 512) (q : Fin 1024) :
    FloatOps.matmul (F := Ideal) (φ₁ := .bf16) (φ₂ := .bf16) dot_S512x4096_S4096x1024_S512x1024_1_0_0_1_n_n none h w2 (constant S512x1024 .f32 0x00000000#32) (ix2 p q)
      = ∑ f : Fin 4096, h (ix2 p f) * w2 (ix2 f q) := by
  rw [Ideal.matmul_constant_zero_apply, ← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx (ix2 p q) ((ValueIdx.contrEquiv1 dot_S512x4096_S4096x1024_S512x1024_1_0_0_1_n_n 4096 rfl rfl).symm k) = ix2 p k := funext fun a => Fin.ext (by
    match a with
    | ⟨0, _⟩ => exact lhs2_0 _ _
    | ⟨1, _⟩ => exact (lhs2_1 _ _).trans hk)
  have er : dot_S512x4096_S4096x1024_S512x1024_1_0_0_1_n_n.rhsIdx (ix2 p q) ((ValueIdx.contrEquiv1 dot_S512x4096_S4096x1024_S512x1024_1_0_0_1_n_n 4096 rfl rfl).symm k) = ix2 k q := funext fun a => Fin.ext (by
    match a with
    | ⟨0, _⟩ => exact (rhs2_0 _ _).trans hk
    | ⟨1, _⟩ => exact rhs2_1 _ _)
  rw [el, er]

/-! ## A bias row spread over the 512 rows of a block -/

theorem bias1_apply (b : S1x4096.Idx → EReal) (p : Fin 512) (f : Fin 4096) :
    broadcastTo S512x4096 b broadcasts_S1x4096_S512x4096 (ix2 p f) = b (ix2 0 f) :=
  broadcastTo_apply b broadcasts_S1x4096_S512x4096 (ix2 p f) (ix2 0 f) (fun a => match a with
    | ⟨0, _⟩ => by show 0 = if (1 : Nat) = 1 then 0 else _; rw [if_pos rfl]
    | ⟨1, _⟩ => by show f.val = if (4096 : Nat) = 1 then 0 else f.val; rw [if_neg (by decide)])

theorem bias2_apply (b : S1x1024.Idx → EReal) (p : Fin 512) (q : Fin 1024) :
    broadcastTo S512x1024 b broadcasts_S1x1024_S512x1024 (ix2 p q) = b (ix2 0 q) :=
  broadcastTo_apply b broadcasts_S1x1024_S512x1024 (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)])

/-! ## The stored value at one element -/

/-- The perceptron at one token row: `z` a block of rows, `w1`, `b1`, `w2`, `b2` the whole parameters as the body loads them. -/
def rowMlp (z : S512x8.Idx → EReal) (w1 : S8x4096.Idx → EReal) (b1 : S1x4096.Idx → EReal) (w2 : S4096x1024.Idx → EReal)
    (b2 : S1x1024.Idx → EReal) (p : Fin 512) (q : Fin 1024) : EReal :=
  (∑ f : Fin 4096, max ((∑ k : Fin 8, z (ix2 p k) * w1 (ix2 k f)) + b1 (ix2 0 f)) 0 * w2 (ix2 f q)) + b2 (ix2 0 q)

/-- What the body stores, at row `p` and column `q`. -/
theorem pay_apply (z : S512x8.Idx → EReal) (w1 : S8x4096.Idx → EReal) (b1 : S1x4096.Idx → EReal) (w2 : S4096x1024.Idx → EReal)
    (b2 : S1x1024.Idx → EReal) (p : Fin 512) (q : Fin 1024) :
    k0_pay1 (F := Ideal) z w1 b1 w2 b2 (ix2 p q) = rowMlp z w1 b1 w2 b2 p q := by
  unfold k0_pay1 rowMlp
  simp only [shapeCast_self]
  rw [addf_apply, bias2_apply]
  refine congrArg (· + b2 (ix2 0 q)) ?_
  show FloatOps.matmul (F := Ideal) (φ₁ := .bf16) (φ₂ := .bf16) dot_S512x4096_S4096x1024_S512x1024_1_0_0_1_n_n none _ w2 (constant S512x1024 .f32 0x00000000#32) (ix2 p q) = _
  rw [out_apply]
  refine Finset.sum_congr rfl fun f _ => ?_
  refine congrArg (· * w2 (ix2 f q)) ?_
  rw [truncf_apply, maximumf_apply, addf_apply, bias1_apply, broadcast_apply]
  show max (FloatOps.matmul (F := Ideal) (φ₁ := .bf16) (φ₂ := .bf16) dot_S512x8_S8x4096_S512x4096_1_0_0_1_n_n none z w1 (constant S512x4096 .f32 0x00000000#32) (ix2 p f) + b1 (ix2 0 f)) (Ideal.ofBits .f32 0x00000000#32) = _
  rw [hidden_apply, Ideal.ofBits_zero_f32]

end Cert.KernelIdeal.Mlp

end
-- ==== Proof.Blocks.lean ====
/-
  From the blocks the grid points write back to the whole array the region leaves.

  The grid has sixteen points. Point `t` reads rows `512·t … 512·t + 511` of the token array (8192 rows of 8 features)
  and the whole of the four parameter arrays, and writes back rows `512·t … 512·t + 511` of the result (8192 rows of 1024
  columns). What it writes is the perceptron of Payload.lean at each of its rows, so it is the restriction to those rows
  of ONE function of the five staged arrays: row `r`, column `d` of the result depends on row `r` of the tokens only.
  The sixteen row bands cover the 8192 rows, hence the array ends holding that function everywhere.
-/
import proofs.«172805_j65481071410316_1_alg».proof.Proof.Gen.KernelIdeal.Frame
import proofs.«172805_j65481071410316_1_alg».proof.Proof.Payload

set_option maxRecDepth 16384

noncomputable section

namespace Cert.KernelIdeal.Mlp

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The perceptron over all 8192 token rows: row `i 0`, column `i 1` of the region's result as a function of the five
    arrays the windows stage. -/
def rowsMlp (z : S8192x8.Idx → EReal) (w1 : S8x4096.Idx → EReal) (b1 : S1x4096.Idx → EReal) (w2 : S4096x1024.Idx → EReal)
    (b2 : S1x1024.Idx → EReal) : S8192x1024.Idx → EReal := fun i =>
  (∑ f : Fin 4096, max ((∑ k : Fin 8, z (ix2 (⟨(i 0).val, (i 0).isLt⟩ : Fin 8192) k) * w1 (ix2 k f)) + b1 (ix2 0 f)) 0
      * w2 (ix2 f (⟨(i 1).val, (i 1).isLt⟩ : Fin 1024))) + b2 (ix2 0 (⟨(i 1).val, (i 1).isLt⟩ : Fin 1024))

theorem zeros2 : (![0, 0] : Fin 2 → Nat) = fun _ => 0 := funext fun a => by fin_cases a <;> rfl

/-- Where each window's block sits at point `t`: the token and result windows on row band `t`, the four parameter
    windows always at the origin. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The perceptron over all rows, read at an index whose coordinates are named. -/
theorem rowsMlp_apply (z : S8192x8.Idx → EReal) (w1 : S8x4096.Idx → EReal) (b1 : S1x4096.Idx → EReal) (w2 : S4096x1024.Idx → EReal)
    (b2 : S1x1024.Idx → EReal) (i : S8192x1024.Idx) (r : Fin 8192) (d : Fin 1024) (hr : (i 0).val = r.val) (hd : (i 1).val = d.val) :
    rowsMlp z w1 b1 w2 b2 i
      = (∑ f : Fin 4096, max ((∑ k : Fin 8, z (ix2 r k) * w1 (ix2 k f)) + b1 (ix2 0 f)) 0 * w2 (ix2 f d)) + b2 (ix2 0 d) := by
  have er : (⟨(i 0).val, (i 0).isLt⟩ : Fin 8192) = r := Fin.ext hr
  have ed : (⟨(i 1).val, (i 1).isLt⟩ : Fin 1024) = d := Fin.ext hd
  unfold rowsMlp
  rw [er, ed]

theorem point_lt (t : Fin cfg0.N) : t.val < 16 := lt_of_lt_of_eq t.isLt N_0

/-- The token window's block at point `t` is rows `512·t …` of the token array. -/
theorem tok_read (c : Dev nD) (t : Fin cfg0.N) (p : Fin 512) (k : Fin 8) (r : Fin 8192) (hr : r.val = t.val * 512 + p.val) :
    iblk m c 0 t (ix2 p k) = V m c main_v33 (ix2 r k) := by
  obtain ⟨e00, e01, -⟩ := block_index t
  show V m c main_v33 (((cfg0.win 0).blk t).view.emb (ix2 p k)) = V m c main_v33 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 8 + 1 * k.val = k.val; omega

/-- Each parameter window's block is the whole parameter array, at every point. -/
theorem w1_read (c : Dev nD) (t : Fin cfg0.N) (y : S8x4096.Idx) : iblk m c 1 t y = V m c main_v35 y := by
  obtain ⟨-, -, e10, e11, -⟩ := block_index t
  show V m c main_v35 (((cfg0.win 1).blk t).view.emb y) = V m c main_v35 y
  refine congrArg _ (funext fun a => Fin.ext ?_)
  match a with
  | ⟨0, _⟩ => show win0_1.index t (0 : Fin 2) * 8 + 1 * (y 0).val = (y 0).val; omega
  | ⟨1, _⟩ => show win0_1.index t (1 : Fin 2) * 4096 + 1 * (y 1).val = (y 1).val; omega
theorem b1_read (c : Dev nD) (t : Fin cfg0.N) (y : S1x4096.Idx) : iblk m c 2 t y = V m c main_v38 y := by
  obtain ⟨-, -, -, -, e20, e21, -⟩ := block_index t
  show V m c main_v38 (((cfg0.win 2).blk t).view.emb y) = V m c main_v38 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega
theorem w2_read (c : Dev nD) (t : Fin cfg0.N) (y : S4096x1024.Idx) : iblk m c 3 t y = V m c main_v37 y := by
  obtain ⟨-, -, -, -, -, -, e30, e31, -⟩ := block_index t
  show V m c main_v37 (((cfg0.win 3).blk t).view.emb y) = V m c main_v37 y
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 1024 + 1 * (y 1).val = (y 1).val; omega
theorem b2_read (c : Dev nD) (t : Fin cfg0.N) (y : S1x1024.Idx) : iblk m c 4 t y = V m c main_v39 y := by
  obtain ⟨-, -, -, -, -, -, -, -, e40, e41, -⟩ := block_index t
  show V m c main_v39 (((cfg0.win 4).blk t).view.emb y) = V m c main_v39 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- What point `t` writes back is its row band of the perceptron over the staged arrays. -/
theorem flushed_eq (c : Dev nD) (t : Fin cfg0.N) :
    (dats m 0 c).flushed 5 t = ((cfg0.win 5).blk t).view.read (Elt Ideal)
      (rowsMlp (V m c main_v33) (V m c main_v35) (V m c main_v38) (V m c main_v37) (V m c main_v39)) := by
  show (cfg0.win 5).cut (grid0.coords t) ((dats m 0 c).after 5 t) = _
  rw [after0_5]
  unfold out0_5
  rw [View.canon_unit_zero zeros2]
  simp only [View.ld_unit_zero (S := S512x8) zeros2, View.ld_unit_zero (S := S8x4096) zeros2, View.ld_unit_zero (S := S1x4096) zeros2,
    View.ld_unit_zero (S := S4096x1024) zeros2, View.ld_unit_zero (S := S1x1024) zeros2]
  obtain ⟨-, -, -, -, -, -, -, -, -, -, e50, e51⟩ := block_index t
  have ht := point_lt t
  funext j
  obtain ⟨p, q, rfl⟩ : ∃ (p : Fin 512) (q : Fin 1024), j = ix2 p q := ⟨j 0, j 1, eq_ix2 j⟩
  refine (pay_apply (iblk m c 0 t) (iblk m c 1 t) (iblk m c 2 t) (iblk m c 3 t) (iblk m c 4 t) p q).trans ?_
  rw [View.read_apply]
  refine Eq.trans ?_ (rowsMlp_apply _ _ _ _ _ _ (⟨t.val * 512 + p.val, by have := p.isLt; omega⟩ : Fin 8192) q ?_ ?_).symm
  · unfold rowMlp
    refine congrArg₂ (· + ·) (Finset.sum_congr rfl fun f _ => ?_) (b2_read m c t _)
    refine congrArg₂ (· * ·) (congrArg (max · 0) (congrArg₂ (· + ·) (Finset.sum_congr rfl fun k _ => ?_) (b1_read m c t _))) (w2_read m c t _)
    exact congrArg₂ (· * ·) (tok_read m c t p k _ rfl) (w1_read m c t _)
  · show win0_5.index t (0 : Fin 2) * 512 + 1 * p.val = t.val * 512 + p.val; omega
  · show win0_5.index t (1 : Fin 2) * 1024 + 1 * q.val = q.val; omega

/-! ## The sixteen row bands cover the array -/

/-- An index of the result array is in point `t`'s band iff each coordinate is in the band's range on its axis. -/
theorem mem_band (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v40).slice (win0_5.rect t)).set ↔ _
  rw [View.set_slice_whole, Rect.mem_set_unit]
  exact Iff.rfl

/-- Row `r` is in band `r / 512`. -/
theorem covered (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 512 < cfg0.N := by show _ < grid0.N; rw [N_0]; omega
  obtain ⟨-, -, -, -, -, -, -, -, -, -, e50, e51⟩ := block_index ⟨(i 0).val / 512, hN⟩
  refine ⟨⟨(i 0).val / 512, hN⟩, flush0_5 _, ?_⟩
  rw [mem_band]
  intro a
  match a with
  | ⟨0, _⟩ =>
    show win0_5.index ⟨(i 0).val / 512, hN⟩ (0 : Fin 2) * 512 ≤ (i 0).val ∧ (i 0).val < win0_5.index ⟨(i 0).val / 512, hN⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, hN⟩ (1 : Fin 2) * 1024 ≤ (i 1).val ∧ (i 1).val < win0_5.index ⟨(i 0).val / 512, hN⟩ (1 : Fin 2) * 1024 + 1024
    rw [e51]; omega

/-- The result array after the region: the perceptron over all rows, of the staged arrays as the region finds them. -/
theorem final (c : Dev nD) :
    (dats m 0 c).arrAt 5 cfg0.N = rowsMlp (V m c main_v33) (V m c main_v35) (V m c main_v38) (V m c main_v37) (V m c main_v39) :=
  (dats m 0 c).arrAt_eq_of_cover 5 _ (fun t _ => flushed_eq m c t) covered

end Cert.KernelIdeal.Mlp

end
-- ==== Proof.HostSides.lean ====
/-
  The host lines around the region, read at an index.

  Before the region the program computes, for every token, eight expectation values from the first eight features
  (the stage the reference names `val_main_v31`: the very same host operations on the same arguments), lays the
  [4, 2048, 8] result out as 8192 rows of 8, transposes the two weights and views each bias as one row. After the
  region it views the 8192 rows of 1024 as [4, 2048, 1024]. Row `r` of the flat layout is token `(r / 2048, r % 2048)`.
-/
import proofs.«172805_j65481071410316_1_alg».proof.Proof.Gen.KernelIdeal.Frame
import proofs.«172805_j65481071410316_1_alg».proof.Proof.Gen.ReferenceIdeal.Read
import Idealize.ShloMosaic.Lib.StableHlo.Run

set_option maxRecDepth 16384

noncomputable section

namespace Cert.KernelIdeal.Mlp

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The per-token expectation values, as the region finds them laid out in 8192 rows. -/
theorem tokens_term (c : Dev nD) :
    (V m c main_v33 : S8192x8.Idx → EReal)
      = truncf (F := Ideal) .bf16 (shapeCast S8192x8 (Cert.ReferenceIdeal.Read.val_main_v31 (F := Ideal) (m ((c : Thread nD τ).loc main_arg0)) (m ((c : Thread nD τ).loc main_arg1))) shapeCasts_S4x2048x8_S8192x8) bitsLt_bf16_f32 := by
  show StableHlo.after hostOps0 (fun b => m (c, b)) (Proc.devRef .tc main_v33) = _
  after_results_simp
  rfl

/-- The first weight as staged: transposed, so that feature `k` of hidden unit `f` sits at `(k, f)`. -/
theorem w1_term (c : Dev nD) :
    (V m c main_v35 : S8x4096.Idx → EReal)
      = truncf (F := Ideal) .bf16 (transpose S8x4096 [1, 0] (m ((c : Thread nD τ).loc main_arg2)) transposes_S4096x8_S8x4096_1_0) bitsLt_bf16_f32 := by
  show StableHlo.after hostOps0 (fun b => m (c, b)) (Proc.devRef .tc main_v35) = _
  after_results_simp

/-- The second weight as staged: transposed, hidden unit `f` of output column `d` at `(f, d)`. -/
theorem w2_term (c : Dev nD) :
    (V m c main_v37 : S4096x1024.Idx → EReal)
      = truncf (F := Ideal) .bf16 (transpose S4096x1024 [1, 0] (m ((c : Thread nD τ).loc main_arg4)) transposes_S1024x4096_S4096x1024_1_0) bitsLt_bf16_f32 := by
  show StableHlo.after hostOps0 (fun b => m (c, b)) (Proc.devRef .tc main_v37) = _
  after_results_simp

/-- The two biases as staged: each viewed as one row. -/
theorem b1_term (c : Dev nD) :
    (V m c main_v38 : S1x4096.Idx → EReal) = shapeCast S1x4096 (m ((c : Thread nD τ).loc main_arg3)) shapeCasts_S4096_S1x4096 := by
  show StableHlo.after hostOps0 (fun b => m (c, b)) (Proc.devRef .tc main_v38) = _
  after_results_simp
  rfl
theorem b2_term (c : Dev nD) :
    (V m c main_v39 : S1x1024.Idx → EReal) = shapeCast S1x1024 (m ((c : Thread nD τ).loc main_arg5)) shapeCasts_S1024_S1x1024 := by
  show StableHlo.after hostOps0 (fun b => m (c, b)) (Proc.devRef .tc main_v39) = _
  after_results_simp
  rfl

/-- After the region: the program's result is the region's array viewed as [4, 2048, 1024]. -/
theorem tail_term (c : Dev nD) :
    Pipeline.afterTail₀ cfgs (dats m) 0 (V0 m) [hostOps1] c main_v41
      = shapeCast S4x2048x1024 ((dats m 0 c).arrAt 5 cfg0.N) shapeCasts_S8192x1024_S4x2048x1024 := by
  unfold Pipeline.afterTail₀
  show StableHlo.after hostOps1 _ (Proc.devRef .tc main_v41) = _
  after_results
  have e : Pipeline.withArrays (cfgs 0).spec c (V0 m c) (fun w => (dats m 0 c).arrAt w (cfgs 0).N) (Proc.devRef .tc main_v40)
      = (dats m 0 c).arrAt 5 cfg0.N := Pipeline.withArrays_arr spec0 launch0.win.arr_inj c _ _ 5
  rw [e]
  rfl

/-! ## The staged arrays at an index -/

/-- Row `r = 2048·b + s` of the flat token layout is token `(b, s)`. -/
theorem tokens_at (c : Dev nD) (b : Fin 4) (s : Fin 2048) (k : Fin 8) (r : Fin 8192) (hr : r.val = b.val * 2048 + s.val) :
    V m c main_v33 (ix2 r k)
      = Cert.ReferenceIdeal.Read.val_main_v31 (F := Ideal) (m ((c : Thread nD τ).loc main_arg0)) (m ((c : Thread nD τ).loc main_arg1)) (ix3 b s k) := by
  rw [tokens_term]
  refine Eq.trans (truncf_apply _ _ _) ?_
  refine shapeCast_apply _ shapeCasts_S4x2048x8_S8192x8 (ix2 r k) (ix3 b s k) ?_
  rw [Shape.rowMajor_val_two, Shape.rowMajor_val_three]
  show (b.val * 2048 + s.val) * 8 + k.val = r.val * 8 + k.val
  omega

theorem w1_at (c : Dev nD) (k : Fin 8) (f : Fin 4096) :
    V m c main_v35 (ix2 k f) = m ((c : Thread nD τ).loc main_arg2) (ix2 f k) := by
  rw [w1_term]
  exact transpose_apply [1, 0] _ transposes_S4096x8_S8x4096_1_0 (ix2 k f) (ix2 f k) (fun a => match a with
    | ⟨0, _⟩ => rfl
    | ⟨1, _⟩ => rfl)

theorem w2_at (c : Dev nD) (f : Fin 4096) (d : Fin 1024) :
    V m c main_v37 (ix2 f d) = m ((c : Thread nD τ).loc main_arg4) (ix2 d f) := by
  rw [w2_term]
  exact transpose_apply [1, 0] _ transposes_S1024x4096_S4096x1024_1_0 (ix2 f d) (ix2 d f) (fun a => match a with
    | ⟨0, _⟩ => rfl
    | ⟨1, _⟩ => rfl)

theorem b1_at (c : Dev nD) (f : Fin 4096) :
    V m c main_v38 (ix2 0 f) = m ((c : Thread nD τ).loc main_arg3) (ix1 f) := by
  rw [b1_term]
  refine shapeCast_apply _ shapeCasts_S4096_S1x4096 (ix2 0 f) (ix1 f) ?_
  rw [Shape.rowMajor_val_one, Shape.rowMajor_val_two]
  show f.val = 0 * 4096 + f.val
  omega

theorem b2_at (c : Dev nD) (d : Fin 1024) :
    V m c main_v39 (ix2 0 d) = m ((c : Thread nD τ).loc main_arg5) (ix1 d) := by
  rw [b2_term]
  refine shapeCast_apply _ shapeCasts_S1024_S1x1024 (ix2 0 d) (ix1 d) ?_
  rw [Shape.rowMajor_val_one, Shape.rowMajor_val_two]
  show d.val = 0 * 1024 + d.val
  omega

end Cert.KernelIdeal.Mlp

end
-- ==== Proof.RefSide.lean ====
/-
  The reference, read at an index.

  For token `(b, s)` the reference contracts the eight expectation values against each row of the first weight, adds the
  first bias, rectifies, contracts the 4096 hidden units against each row of the second weight and adds the second bias.
  At the ideal instance a `dot_general` is the plain sum of products, so element `(b, s, d)` of its result is

      (∑ f, max ((∑ k, z[b,s,k] · W1[f,k]) + b1[f]) 0 · W2[d,f]) + b2[d]

  with `z` the stage both programs compute from the first eight features (`val_main_v31`).
-/
import proofs.«172805_j65481071410316_1_alg».proof.Proof.Gen.ReferenceIdeal.Read

noncomputable section

namespace Cert.ReferenceIdeal.Mlp

open Cert.ReferenceIdeal Cert.ReferenceIdeal.Gen Cert.ReferenceIdeal.Read Idealize.ShloMosaic Idealize.ShloMosaic.ValueIdx

/-- The two-layer perceptron with a rectifier, token by token, over the unflattened arrays. -/
def tokenMlp (z : S4x2048x8.Idx → EReal) (W1 : S4096x8.Idx → EReal) (b1 : S4096.Idx → EReal) (W2 : S1024x4096.Idx → EReal)
    (b2 : S1024.Idx → EReal) : S4x2048x1024.Idx → EReal := fun i =>
  (∑ f : Fin 4096, max ((∑ k : Fin 8, z (ix3 (⟨(i 0).val, (i 0).isLt⟩ : Fin 4) (⟨(i 1).val, (i 1).isLt⟩ : Fin 2048) k) * W1 (ix2 f k)) + b1 (ix1 f)) 0
      * W2 (ix2 (⟨(i 2).val, (i 2).isLt⟩ : Fin 1024) f)) + b2 (ix1 (⟨(i 2).val, (i 2).isLt⟩ : Fin 1024))

/-- The reference's result stage is that perceptron of its own token stage and the four parameters. -/
theorem ref_eq (x0 : (⟨S4x2048x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (x4 : (⟨S1024x4096, .f32⟩ : BufTy).Contents (Elt Ideal)) (x5 : (⟨S1024, .f32⟩ : BufTy).Contents (Elt Ideal)) :
    val_main_v40 (F := Ideal) x0 x1 x2 x3 x4 x5 = tokenMlp (val_main_v31 (F := Ideal) x0 x1) x2 x3 x4 x5 := by
  funext i
  rw [val_main_v40_apply, val_main_v37_apply, val_main_v39_apply, val_main_v38_apply]
  unfold tokenMlp
  refine congrArg₂ (· + ·) (Finset.sum_congr rfl fun f _ => ?_) (congrArg x5 ?_)
  · rw [val_main_v36_apply, val_main_v35_apply, val_main_v32_apply, val_main_v34_apply, val_main_v33_apply,
      val_main_call0_v0_apply, val_main_call0_cst_apply]
    refine congrArg₂ (· * ·) (congrArg₂ max (congrArg₂ (· + ·) (Finset.sum_congr rfl fun k _ =>
      congrArg₂ (· * ·) (congrArg (val_main_v31 (F := Ideal) x0 x1) ?_) (congrArg x2 ?_)) (congrArg x3 ?_)) Ideal.ofBits_zero_f32) (congrArg x4 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
    · exact funext fun a => Fin.ext (by match a with | ⟨0, _⟩ => rfl)
    · exact funext fun a => Fin.ext (by match a with | ⟨0, _⟩ => rfl | ⟨1, _⟩ => rfl)
  · exact funext fun a => Fin.ext (by match a with | ⟨0, _⟩ => rfl)

end Cert.ReferenceIdeal.Mlp

end
-- ==== Proof.KernelSide.lean ====
/-
  The kernel program's result as the reference's function of the arguments.

  The region leaves the perceptron over the 8192 flat token rows (Blocks.lean); the host lines before it stage the
  token stage and the parameters, the host line after it views the rows as [4, 2048, 1024] (HostSides.lean). Element
  `(b, s, d)` of the program's result is therefore row `2048·b + s`, column `d` of the region's array, which is the
  perceptron at token `(b, s)`: the same sum of products the reference computes (RefSide.lean), each weight read
  through its transpose.
-/
import proofs.«172805_j65481071410316_1_alg».proof.Proof.Blocks
import proofs.«172805_j65481071410316_1_alg».proof.Proof.HostSides
import proofs.«172805_j65481071410316_1_alg».proof.Proof.RefSide

set_option maxRecDepth 16384

noncomputable section

namespace Cert.KernelIdeal.Mlp

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The program's result, as a function of its six arguments: the reference's perceptron of the reference's token stage. -/
def result (c : Dev nD) : S4x2048x1024.Idx → EReal :=
  Cert.ReferenceIdeal.Mlp.tokenMlp
    (Cert.ReferenceIdeal.Read.val_main_v31 (F := Ideal) (m ((c : Thread nD τ).loc main_arg0)) (m ((c : Thread nD τ).loc main_arg1)))
    (m ((c : Thread nD τ).loc main_arg2)) (m ((c : Thread nD τ).loc main_arg3)) (m ((c : Thread nD τ).loc main_arg4)) (m ((c : Thread nD τ).loc main_arg5))

/-- What the host line after the region leaves in the result buffer. -/
theorem tail_eq (c : Dev nD) :
    Pipeline.afterTail₀ cfgs (dats m) 0 (V0 m) [hostOps1] c main_v41 = result m c := by
  rw [tail_term, final]
  funext i
  have h0 : (i 0).val < 4 := (i 0).isLt
  have h1 : (i 1).val < 2048 := (i 1).isLt
  have h2 : (i 2).val < 1024 := (i 2).isLt
  refine (shapeCast_apply _ shapeCasts_S8192x1024_S4x2048x1024 i
    (ix2 (⟨(i 0).val * 2048 + (i 1).val, by omega⟩ : Fin 8192) (⟨(i 2).val, h2⟩ : Fin 1024)) ?_).trans ?_
  · rw [Shape.rowMajor_val_two, Shape.rowMajor_val_three]
    rfl
  refine (rowsMlp_apply _ _ _ _ _ _ (⟨(i 0).val * 2048 + (i 1).val, by omega⟩ : Fin 8192) (⟨(i 2).val, h2⟩ : Fin 1024) rfl rfl).trans ?_
  unfold result Cert.ReferenceIdeal.Mlp.tokenMlp
  refine congrArg₂ (· + ·) (Finset.sum_congr rfl fun f _ => ?_) (b2_at m c _)
  refine congrArg₂ (· * ·) (congrArg (max · 0) (congrArg₂ (· + ·) (Finset.sum_congr rfl fun k _ => ?_) (b1_at m c f))) (w2_at m c f _)
  exact congrArg₂ (· * ·) (tokens_at m c ⟨(i 0).val, h0⟩ ⟨(i 1).val, h1⟩ k _ rfl) (w1_at m c k f)

/-- The idealized kernel program runs, ends with the reference's function of its arguments in the result buffer, and
    leaves its arguments as they were. -/
theorem run : θ_run defs (onTc (τ := τ) (main (F := Ideal))) ⟨m, fun _ => 0, ρ⟩ (fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v41 (Pipeline.mem_restRefs_of main_v41 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Mlp

end
-- ==== Proof.lean ====
/-
  A two-layer perceptron with a rectifier, applied to eight per-token expectation values, as a tiled kernel against its
  plain reference: the certificate's five claims.

  Both programs first compute, on the host and by the same operations, eight expectation values per token from the
  token's first eight features and the eight angles. The kernel program lays the 4 × 2048 tokens out as 8192 rows, and
  its sixteen grid points each take 512 rows through the two matrix products (into zero accumulators, with the bias
  added and the rectifier between them), against the weights transposed beforehand; the reference contracts the
  unflattened array against the weights as given. Over the extended reals a product into a zero accumulator and a
  `dot_general` are the same finite sum of products, a change of float format is the identity, and a row of the flat
  layout is a token, so the two results agree element by element, with no condition on the inputs: only commutative
  reindexing of finite sums is used, never distributivity or cancellation.

  The three frames are the generated ones (the reference's frame is its generated run with the result dropped); the
  idealization rewrote nothing, so `preserves` is `True`.
-/
import proofs.«172805_j65481071410316_1_alg».proof.Defs
import proofs.«172805_j65481071410316_1_alg».proof.Proof.Gen.Kernel
import proofs.«172805_j65481071410316_1_alg».proof.Proof.Gen.Kernel.Skeleton
import proofs.«172805_j65481071410316_1_alg».proof.Proof.Gen.Kernel.Launch
import proofs.«172805_j65481071410316_1_alg».proof.Proof.Gen.Kernel.Points
import proofs.«172805_j65481071410316_1_alg».proof.Proof.Gen.Kernel.Frame
import proofs.«172805_j65481071410316_1_alg».proof.Proof.Gen.KernelIdeal
import proofs.«172805_j65481071410316_1_alg».proof.Proof.Gen.KernelIdeal.Skeleton
import proofs.«172805_j65481071410316_1_alg».proof.Proof.Gen.KernelIdeal.Launch
import proofs.«172805_j65481071410316_1_alg».proof.Proof.Gen.KernelIdeal.Points
import proofs.«172805_j65481071410316_1_alg».proof.Proof.Gen.KernelIdeal.Frame
import proofs.«172805_j65481071410316_1_alg».proof.Proof.Gen.ReferenceIdeal
import proofs.«172805_j65481071410316_1_alg».proof.Proof.Gen.ReferenceIdeal.Run
import proofs.«172805_j65481071410316_1_alg».proof.Proof.Gen.ReferenceIdeal.Read
import proofs.«172805_j65481071410316_1_alg».proof.Proof.Gen.Pre_finite_inputs
import proofs.«172805_j65481071410316_1_alg».proof.Proof.KernelSide
import Idealize.ShloMosaic.Adequacy
import Idealize.ShloMosaic.Init

noncomputable section

namespace Cert.Proof

open Idealize.ShloMosaic Idealize.SL.Sem

/-- Run from memories that agree on the six arguments, the idealized kernel program and the idealized reference both
    end with the perceptron of the shared token stage in their result buffers, and leave the arguments alone. -/
theorem algebraic : Cert.algebraic_KernelIdeal_ReferenceIdeal := by
  intro m ρ m' ρ' _ hagree
  refine ⟨fun c => Cert.KernelIdeal.Mlp.result m c, Cert.KernelIdeal.Mlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.Mlp.ref_eq]
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
